-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S3200000x33 : Shape := ⟨2, ![3200000, 33]⟩
abbrev S65x4 : Shape := ⟨2, ![65, 4]⟩
abbrev S4 : Shape := ⟨1, ![4]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S3200000x33 : S_.BroadcastsInDim S3200000x33 (![] : Fin 0 → Fin S3200000x33.rank)
  reducesTo_S3200000x33_S_d0_1 : S3200000x33.ReducesTo [0, 1] S_
  bcast_S_S65x4 : S_.BroadcastsInDim S65x4 (![] : Fin 0 → Fin S65x4.rank)
  reducesTo_S65x4_S_d0_1 : S65x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  main_v18

def fn {F : FTy → Type} [FloatOps F] (main_arg0 : FVec F S100000x32 .f32) (main_arg1 : IVec S2x3200000 32) (main_arg2 : FVec F S3200000x33 .f32) (main_arg3 : FVec F S65x4 .f32) (main_arg4 : FVec F S4 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S3200000x33 .f32 := Host.absf main_arg2
  let main_cst_0 : FVec F S_ .f32 := constant S_ .f32 0x7F800000#32
  let main_v5 : FVec F S3200000x33 .f32 := broadcastInDim S3200000x33 ![] bcast_S_S3200000x33 main_cst_0
  let main_v6 : IVec S3200000x33 1 := cmpf .olt main_v4 main_v5
  let main_c_1 : IVec S_ 1 := constantI S_ 1 1#1
  let main_v7 : IVec S_ 1 := (fun x v => Host.reduce IntOp.andi x v reducesTo_S3200000x33_S_d0_1 h_S_) main_v6 main_c_1
  let main_v8 : IVec S_ 1 := andi main_v3 main_v7
  let main_v9 : FVec F S65x4 .f32 := Host.absf main_arg3
  let main_cst_2 : FVec F S_ .f32 := constant S_ .f32 0x7F800000#32
  let main_v10 : FVec F S65x4 .f32 := broadcastInDim S65x4 ![] bcast_S_S65x4 main_cst_2
  let main_v11 : IVec S65x4 1 := cmpf .olt main_v9 main_v10
  let main_c_3 : IVec S_ 1 := constantI S_ 1 1#1
  let main_v12 : IVec S_ 1 := (fun x v => Host.reduce IntOp.andi x v reducesTo_S65x4_S_d0_1 h_S_) main_v11 main_c_3
  let main_v13 : IVec S_ 1 := andi main_v8 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_v13 main_v16
-- ==== Kernel.lean ====
abbrev S100000x32 : Shape := ⟨2, ![100000, 32]⟩
abbrev S2x3200000 : Shape := ⟨2, ![2, 3200000]⟩
abbrev S3200000x33 : Shape := ⟨2, ![3200000, 33]⟩
abbrev S65x4 : Shape := ⟨2, ![65, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S32x4 : Shape := ⟨2, ![32, 4]⟩
abbrev S33x4 : Shape := ⟨2, ![33, 4]⟩
abbrev S1x4 : Shape := ⟨2, ![1, 4]⟩
abbrev S3200000x4 : Shape := ⟨2, ![3200000, 4]⟩
abbrev S12800x32 : Shape := ⟨2, ![12800, 32]⟩
abbrev S12800x33 : Shape := ⟨2, ![12800, 33]⟩
abbrev S12800x4 : Shape := ⟨2, ![12800, 4]⟩
abbrev S100000x4 : Shape := ⟨2, ![100000, 4]⟩
abbrev S100000 : Shape := ⟨1, ![100000]⟩
abbrev S100000x1 : Shape := ⟨2, ![100000, 1]⟩
abbrev S100000x36 : Shape := ⟨2, ![100000, 36]⟩

abbrev nBuf : Space → Nat
  | .hbm => 39
  | .vmem => 9
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S3200000x33, .f32⟩
  | .hbm, ⟨3, _⟩ => ⟨S65x4, .f32⟩
  | .hbm, ⟨4, _⟩ => ⟨S4, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x32, .f32⟩
  | .hbm, ⟨18, _⟩ => ⟨S32x4, .f32⟩
  | .hbm, ⟨19, _⟩ => ⟨S33x4, .f32⟩
  | .hbm, ⟨20, _⟩ => ⟨S1x4, .f32⟩
  | .hbm, ⟨21, _⟩ => ⟨S3200000x4, .f32⟩
  | .hbm, ⟨22, _⟩ => ⟨S_, .f32⟩
  | .hbm, ⟨23, _⟩ => ⟨S100000x4, .f32⟩
  | .hbm, ⟨24, _⟩ => ⟨S3200000x1, .i32⟩
  | .hbm, ⟨25, _⟩ => ⟨S100000x4, .f32⟩
  | .hbm, ⟨26, _⟩ => ⟨S_, .f32⟩
  | .hbm, ⟨27, _⟩ => ⟨S3200000, .f32⟩
  | .hbm, ⟨28, _⟩ => ⟨S_, .f32⟩
  | .hbm, ⟨29, _⟩ => ⟨S100000, .f32⟩
  | .hbm, ⟨30, _⟩ => ⟨S3200000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x4, .f32⟩
  | .hbm, ⟨37, _⟩ => ⟨S100000x4, .f32⟩
  | .hbm, ⟨38, _⟩ => ⟨S100000x36, .f32⟩
  | .local _ .vmem, ⟨0, _⟩ => ⟨S12800x32, .f32⟩
  | .local _ .vmem, ⟨1, _⟩ => ⟨S12800x32, .f32⟩
  | .local _ .vmem, ⟨2, _⟩ => ⟨S12800x33, .f32⟩
  | .local _ .vmem, ⟨3, _⟩ => ⟨S12800x33, .f32⟩
  | .local _ .vmem, ⟨4, _⟩ => ⟨S32x4, .f32⟩
  | .local _ .vmem, ⟨5, _⟩ => ⟨S33x4, .f32⟩
  | .local _ .vmem, ⟨6, _⟩ => ⟨S1x4, .f32⟩
  | .local _ .vmem, ⟨7, _⟩ => ⟨S12800x4, .f32⟩
  | .local _ .vmem, ⟨8, _⟩ => ⟨S12800x4, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x33 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S33x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S12800x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S65x4_S32x4_0_0 : S65x4.Slices ![0, 0] S32x4
  slices_S65x4_S33x4_32_0 : S65x4.Slices ![32, 0] S33x4
  shapeCasts_S4_S1x4 : S4.ShapeCasts S1x4
  inb_S12800x32_S12800x32_0_0 : ∀ a, (![0, 0] : Fin 2 → Nat) a + S12800x32.size a ≤ S12800x32.size a
  h_S12800x32 : 0 < S12800x32.numel
  shapeCasts_S12800x32_S12800x32 : S12800x32.ShapeCasts S12800x32
  inb_S32x4_S32x4_0_0 : ∀ a, (![0, 0] : Fin 2 → Nat) a + S32x4.size a ≤ S32x4.size a
  h_S32x4 : 0 < S32x4.numel
  shapeCasts_S32x4_S32x4 : S32x4.ShapeCasts S32x4
  inb_S12800x33_S12800x33_0_0 : ∀ a, (![0, 0] : Fin 2 → Nat) a + S12800x33.size a ≤ S12800x33.size a
  h_S12800x33 : 0 < S12800x33.numel
  inb_S33x4_S33x4_0_0 : ∀ a, (![0, 0] : Fin 2 → Nat) a + S33x4.size a ≤ S33x4.size a
  h_S33x4 : 0 < S33x4.numel
  shapeCasts_S33x4_S33x4 : S33x4.ShapeCasts S33x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S12800x4 : S1x4.Broadcasts S12800x4
  inb_S12800x4_S12800x4_0_0 : ∀ a, (![0, 0] : Fin 2 → Nat) a + S12800x4.size a ≤ S12800x4.size a
  h_S12800x4 : 0 < S12800x4.numel
  bcast_S_S100000x4 : S_.BroadcastsInDim S100000x4 (![] : Fin 0 → Fin S100000x4.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  concatenates_S100000x32_S100000x4_S100000x36_d1 : Shape.Concatenates [S100000x32, S100000x4] S100000x36 1
  gather_S100000x32_S3200000x1_S3200000x32_1_0_n_n_0_1_132_wf : GatherDims.WF S100000x32 S3200000x1 S3200000x32 [1] [0] [] [0] [] 1 ![1, 32]
  dot_S12800x32_S32x4_S12800x4_1_0_0_1_n_n_wf : DotDims.WF S12800x32 S32x4 S12800x4 [1] [0] [0] [1] [] []
  dot_S12800x33_S33x4_S12800x4_1_0_0_1_n_n_wf : DotDims.WF S12800x33 S33x4 S12800x4 [1] [0] [0] [1] [] []
  scatter_S100000x4_S3200000x1_S3200000x4_1_0_0_1_wf : ScatterDims.WF S100000x4 S3200000x1 S3200000x4 [1] [0] [0] 1
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x32.size a ≤ S3200000x32.size a
  hwx0_0 : ∀ i : grid0.Coords, EltTy.bits .f32 = 32 ∨ (Rect.block (s := S3200000x32) S12800x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x33.size a ≤ S3200000x33.size a
  hwx0_1 : ∀ i : grid0.Coords, EltTy.bits .f32 = 32 ∨ (Rect.block (s := S3200000x33) S12800x33.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x4.size a ≤ S32x4.size a
  hwx0_2 : ∀ i : grid0.Coords, EltTy.bits .f32 = 32 ∨ (Rect.block (s := S32x4) S32x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S33x4.size a ≤ S33x4.size a
  hwx0_3 : ∀ i : grid0.Coords, EltTy.bits .f32 = 32 ∨ (Rect.block (s := S33x4) S33x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S12800x4.size a ≤ S3200000x4.size a
  hwx0_5 : ∀ i : grid0.Coords, EltTy.bits .f32 = 32 ∨ (Rect.block (s := S3200000x4) S12800x4.size (cc0_transform_5 i) (hinb0_5 i)).WholeWords (EltTy.packing .f32)

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S12800x32_S32x4_S12800x4_1_0_0_1_n_n : DotDims S12800x32 S32x4 S12800x4 where
  lhsContracting := [1]
  rhsContracting := [0]
  lhsNonContracting := [0]
  rhsNonContracting := [1]
  lhsBatch := []
  rhsBatch := []
  wf := dot_S12800x32_S32x4_S12800x4_1_0_0_1_n_n_wf
def dot_S12800x33_S33x4_S12800x4_1_0_0_1_n_n : DotDims S12800x33 S33x4 S12800x4 where
  lhsContracting := [1]
  rhsContracting := [0]
  lhsNonContracting := [0]
  rhsNonContracting := [1]
  lhsBatch := []
  rhsBatch := []
  wf := dot_S12800x33_S33x4_S12800x4_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_v10) S12800x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12800x33.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S32x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S33x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S12800x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S3200000x33 : Shape := ⟨2, ![3200000, 33]⟩
abbrev S65x4 : Shape := ⟨2, ![65, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S3200000x65 : Shape := ⟨2, ![3200000, 65]⟩
abbrev S3200000x4 : Shape := ⟨2, ![3200000, 4]⟩
abbrev S1x4 : Shape := ⟨2, ![1, 4]⟩
abbrev S100000x4 : Shape := ⟨2, ![100000, 4]⟩
abbrev S100000 : Shape := ⟨1, ![100000]⟩
abbrev S100000x1 : Shape := ⟨2, ![100000, 1]⟩
abbrev S100000x36 : Shape := ⟨2, ![100000, 36]⟩

abbrev nBuf : Space → Nat
  | .hbm => 43
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S3200000x33, .f32⟩
  | .hbm, ⟨3, _⟩ => ⟨S65x4, .f32⟩
  | .hbm, ⟨4, _⟩ => ⟨S4, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x32, .f32⟩
  | .hbm, ⟨18, _⟩ => ⟨S3200000x65, .f32⟩
  | .hbm, ⟨19, _⟩ => ⟨S3200000x4, .f32⟩
  | .hbm, ⟨20, _⟩ => ⟨S1x4, .f32⟩
  | .hbm, ⟨21, _⟩ => ⟨S3200000x4, .f32⟩
  | .hbm, ⟨22, _⟩ => ⟨S3200000x4, .f32⟩
  | .hbm, ⟨23, _⟩ => ⟨S_, .f32⟩
  | .hbm, ⟨24, _⟩ => ⟨S3200000x4, .f32⟩
  | .hbm, ⟨25, _⟩ => ⟨S3200000x4, .f32⟩
  | .hbm, ⟨26, _⟩ => ⟨S_, .f32⟩
  | .hbm, ⟨27, _⟩ => ⟨S100000x4, .f32⟩
  | .hbm, ⟨28, _⟩ => ⟨S3200000x1, .i32⟩
  | .hbm, ⟨29, _⟩ => ⟨S100000x4, .f32⟩
  | .hbm, ⟨30, _⟩ => ⟨S_, .f32⟩
  | .hbm, ⟨31, _⟩ => ⟨S3200000, .f32⟩
  | .hbm, ⟨32, _⟩ => ⟨S_, .f32⟩
  | .hbm, ⟨33, _⟩ => ⟨S100000, .f32⟩
  | .hbm, ⟨34, _⟩ => ⟨S3200000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x4, .f32⟩
  | .hbm, ⟨41, _⟩ => ⟨S100000x4, .f32⟩
  | .hbm, ⟨42, _⟩ => ⟨S100000x36, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x32_S3200000x33_S3200000x65_d1 : Shape.Concatenates [S3200000x32, S3200000x33] S3200000x65 1
  bcast_S4_S1x4_1 : S4.BroadcastsInDim S1x4 (![1] : Fin 1 → Fin S1x4.rank)
  bcast_S1x4_S3200000x4_0_1 : S1x4.BroadcastsInDim S3200000x4 (![0, 1] : Fin 2 → Fin S3200000x4.rank)
  bcast_S_S3200000x4 : S_.BroadcastsInDim S3200000x4 (![] : Fin 0 → Fin S3200000x4.rank)
  bcast_S_S100000x4 : S_.BroadcastsInDim S100000x4 (![] : Fin 0 → Fin S100000x4.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  concatenates_S100000x32_S100000x4_S100000x36_d1 : Shape.Concatenates [S100000x32, S100000x4] S100000x36 1
  gather_S100000x32_S3200000x1_S3200000x32_1_0_n_n_0_1_132_wf : GatherDims.WF S100000x32 S3200000x1 S3200000x32 [1] [0] [] [0] [] 1 ![1, 32]
  dot_S3200000x65_S65x4_S3200000x4_1_0_0_1_n_n_wf : DotDims.WF S3200000x65 S65x4 S3200000x4 [1] [0] [0] [1] [] []
  scatter_S100000x4_S3200000x1_S3200000x4_1_0_0_1_wf : ScatterDims.WF S100000x4 S3200000x1 S3200000x4 [1] [0] [0] 1
  scatter_S100000_S3200000x1_S3200000_n_0_0_1_wf : ScatterDims.WF S100000 S3200000x1 S3200000 [] [0] [0] 1

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S3200000x65_S65x4_S3200000x4_1_0_0_1_n_n : DotDims S3200000x65 S65x4 S3200000x4 where
  lhsContracting := [1]
  rhsContracting := [0]
  lhsNonContracting := [0]
  rhsNonContracting := [1]
  lhsBatch := []
  rhsBatch := []
  wf := dot_S3200000x65_S65x4_S3200000x4_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.EdgeBlock.lean ====
/-
  One block of the edge layer, entry by entry, over the extended reals.

  At a grid point the body holds a block of 12800 edges: their gathered source-node features `x0` (12800 × 32), their
  edge attributes `x5` (12800 × 33), the two row ranges of the weight matrix `x2` (32 × 4) and `x6` (33 × 4), and the
  bias row `x10` (1 × 4). What it stores at edge `p`, output column `q` is

      max ( Σ_{k<32} x0[p,k] · x2[k,q]  +  Σ_{k<33} x5[p,k] · x6[k,q]  +  x10[0,q] , 0 ).

  Each of the two matrix products accumulates into a zero splat, so at the exact values it is the plain sum of
  products over its one contracted axis; the shape casts of the body are between equal shapes and vanish; the bias
  row is broadcast down the rows; the rectifier is the maximum with the zero word.
-/
import proofs.«410914_j23630910063283_4_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.EdgeBlock

open Cert.KernelIdeal Cert.KernelIdeal.Gen Idealize.ShloMosaic Idealize.ShloMosaic.ValueIdx

/-! ## The node-feature product: rows of the block against the first 32 rows of the weights -/

theorem lhs_node_0 (i : S12800x4.Idx) (q : dot_S12800x32_S32x4_S12800x4_1_0_0_1_n_n.contr.Idx) :
    (dot_S12800x32_S32x4_S12800x4_1_0_0_1_n_n.lhsIdx i q 0).val = (i 0).val := by
  unfold DotDims.lhsIdx
  rw [dif_neg (show ¬(0 : Fin S12800x32.rank) ∈ dot_S12800x32_S32x4_S12800x4_1_0_0_1_n_n.lhsBatch by decide), dif_pos (show (0 : Fin S12800x32.rank) ∈ dot_S12800x32_S32x4_S12800x4_1_0_0_1_n_n.lhsNonContracting by decide)]
  rfl
theorem lhs_node_1 (i : S12800x4.Idx) (q : dot_S12800x32_S32x4_S12800x4_1_0_0_1_n_n.contr.Idx) :
    (dot_S12800x32_S32x4_S12800x4_1_0_0_1_n_n.lhsIdx i q 1).val = (q ⟨0, by decide⟩).val :=
  dot_S12800x32_S32x4_S12800x4_1_0_0_1_n_n.lhsIdx_val_of_single rfl i q
theorem rhs_node_0 (i : S12800x4.Idx) (q : dot_S12800x32_S32x4_S12800x4_1_0_0_1_n_n.contr.Idx) :
    (dot_S12800x32_S32x4_S12800x4_1_0_0_1_n_n.rhsIdx i q 0).val = (q ⟨0, by decide⟩).val :=
  dot_S12800x32_S32x4_S12800x4_1_0_0_1_n_n.rhsIdx_val_of_single rfl i q
theorem rhs_node_1 (i : S12800x4.Idx) (q : dot_S12800x32_S32x4_S12800x4_1_0_0_1_n_n.contr.Idx) :
    (dot_S12800x32_S32x4_S12800x4_1_0_0_1_n_n.rhsIdx i q 1).val = (i 1).val := by
  unfold DotDims.rhsIdx
  rw [dif_neg (show ¬(1 : Fin S32x4.rank) ∈ dot_S12800x32_S32x4_S12800x4_1_0_0_1_n_n.rhsBatch by decide), dif_pos (show (1 : Fin S32x4.rank) ∈ dot_S12800x32_S32x4_S12800x4_1_0_0_1_n_n.rhsNonContracting by decide)]
  rfl

/-- The node-feature product at edge `p`, column `q`: the sum over the 32 features. -/
theorem node_dot_apply (a : FVec Ideal S12800x32 .f32) (w : FVec Ideal S32x4 .f32) (p : Fin 12800) (q : Fin 4) :
    matmul dot_S12800x32_S32x4_S12800x4_1_0_0_1_n_n none a w (constant S12800x4 .f32 0x00000000#32) (ix2 p q)
      = ∑ k : Fin 32, a (ix2 p k) * w (ix2 k q) := by
  refine (Ideal.matmul_constant_zero_apply dot_S12800x32_S32x4_S12800x4_1_0_0_1_n_n none a w (ix2 p q)).trans ?_
  rw [← Equiv.sum_comp (contrEquiv1 dot_S12800x32_S32x4_S12800x4_1_0_0_1_n_n 32 rfl rfl).symm]
  refine Finset.sum_congr rfl fun k _ => ?_
  have hk := contrEquiv1_symm_val dot_S12800x32_S32x4_S12800x4_1_0_0_1_n_n 32 rfl rfl k
  have el : dot_S12800x32_S32x4_S12800x4_1_0_0_1_n_n.lhsIdx (ix2 p q) ((contrEquiv1 dot_S12800x32_S32x4_S12800x4_1_0_0_1_n_n 32 rfl rfl).symm k) = ix2 p k := funext fun a => Fin.ext (by
    match a with
    | ⟨0, _⟩ => exact lhs_node_0 _ _
    | ⟨1, _⟩ => exact (lhs_node_1 _ _).trans hk)
  have er : dot_S12800x32_S32x4_S12800x4_1_0_0_1_n_n.rhsIdx (ix2 p q) ((contrEquiv1 dot_S12800x32_S32x4_S12800x4_1_0_0_1_n_n 32 rfl rfl).symm k) = ix2 k q := funext fun a => Fin.ext (by
    match a with
    | ⟨0, _⟩ => exact (rhs_node_0 _ _).trans hk
    | ⟨1, _⟩ => exact rhs_node_1 _ _)
  rw [el, er]

/-! ## The edge-attribute product: rows of the block against the last 33 rows of the weights -/

theorem lhs_attr_0 (i : S12800x4.Idx) (q : dot_S12800x33_S33x4_S12800x4_1_0_0_1_n_n.contr.Idx) :
    (dot_S12800x33_S33x4_S12800x4_1_0_0_1_n_n.lhsIdx i q 0).val = (i 0).val := by
  unfold DotDims.lhsIdx
  rw [dif_neg (show ¬(0 : Fin S12800x33.rank) ∈ dot_S12800x33_S33x4_S12800x4_1_0_0_1_n_n.lhsBatch by decide), dif_pos (show (0 : Fin S12800x33.rank) ∈ dot_S12800x33_S33x4_S12800x4_1_0_0_1_n_n.lhsNonContracting by decide)]
  rfl
theorem lhs_attr_1 (i : S12800x4.Idx) (q : dot_S12800x33_S33x4_S12800x4_1_0_0_1_n_n.contr.Idx) :
    (dot_S12800x33_S33x4_S12800x4_1_0_0_1_n_n.lhsIdx i q 1).val = (q ⟨0, by decide⟩).val :=
  dot_S12800x33_S33x4_S12800x4_1_0_0_1_n_n.lhsIdx_val_of_single rfl i q
theorem rhs_attr_0 (i : S12800x4.Idx) (q : dot_S12800x33_S33x4_S12800x4_1_0_0_1_n_n.contr.Idx) :
    (dot_S12800x33_S33x4_S12800x4_1_0_0_1_n_n.rhsIdx i q 0).val = (q ⟨0, by decide⟩).val :=
  dot_S12800x33_S33x4_S12800x4_1_0_0_1_n_n.rhsIdx_val_of_single rfl i q
theorem rhs_attr_1 (i : S12800x4.Idx) (q : dot_S12800x33_S33x4_S12800x4_1_0_0_1_n_n.contr.Idx) :
    (dot_S12800x33_S33x4_S12800x4_1_0_0_1_n_n.rhsIdx i q 1).val = (i 1).val := by
  unfold DotDims.rhsIdx
  rw [dif_neg (show ¬(1 : Fin S33x4.rank) ∈ dot_S12800x33_S33x4_S12800x4_1_0_0_1_n_n.rhsBatch by decide), dif_pos (show (1 : Fin S33x4.rank) ∈ dot_S12800x33_S33x4_S12800x4_1_0_0_1_n_n.rhsNonContracting by decide)]
  rfl

/-- The edge-attribute product at edge `p`, column `q`: the sum over the 33 attributes. -/
theorem attr_dot_apply (a : FVec Ideal S12800x33 .f32) (w : FVec Ideal S33x4 .f32) (p : Fin 12800) (q : Fin 4) :
    matmul dot_S12800x33_S33x4_S12800x4_1_0_0_1_n_n none a w (constant S12800x4 .f32 0x00000000#32) (ix2 p q)
      = ∑ k : Fin 33, a (ix2 p k) * w (ix2 k q) := by
  refine (Ideal.matmul_constant_zero_apply dot_S12800x33_S33x4_S12800x4_1_0_0_1_n_n none a w (ix2 p q)).trans ?_
  rw [← Equiv.sum_comp (contrEquiv1 dot_S12800x33_S33x4_S12800x4_1_0_0_1_n_n 33 rfl rfl).symm]
  refine Finset.sum_congr rfl fun k _ => ?_
  have hk := contrEquiv1_symm_val dot_S12800x33_S33x4_S12800x4_1_0_0_1_n_n 33 rfl rfl k
  have el : dot_S12800x33_S33x4_S12800x4_1_0_0_1_n_n.lhsIdx (ix2 p q) ((contrEquiv1 dot_S12800x33_S33x4_S12800x4_1_0_0_1_n_n 33 rfl rfl).symm k) = ix2 p k := funext fun a => Fin.ext (by
    match a with
    | ⟨0, _⟩ => exact lhs_attr_0 _ _
    | ⟨1, _⟩ => exact (lhs_attr_1 _ _).trans hk)
  have er : dot_S12800x33_S33x4_S12800x4_1_0_0_1_n_n.rhsIdx (ix2 p q) ((contrEquiv1 dot_S12800x33_S33x4_S12800x4_1_0_0_1_n_n 33 rfl rfl).symm k) = ix2 k q := funext fun a => Fin.ext (by
    match a with
    | ⟨0, _⟩ => exact (rhs_attr_0 _ _).trans hk
    | ⟨1, _⟩ => exact rhs_attr_1 _ _)
  rw [el, er]

/-! ## The bias row broadcast down the block -/

/-- The bias row, broadcast to every edge of the block, read at edge `p`, column `q`, is the row's entry `q`. -/
theorem bias_apply (b : FVec Ideal S1x4 .f32) (p : Fin 12800) (q : Fin 4) :
    broadcastTo S12800x4 b broadcasts_S1x4_S12800x4 (ix2 p q) = b (ix2 0 q) :=
  broadcastTo_apply b broadcasts_S1x4_S12800x4 (ix2 p q) (ix2 0 q) (fun a => match a with
    | ⟨0, _⟩ => by show 0 = if (1 : Nat) = 1 then 0 else p.val; rw [if_pos rfl]
    | ⟨1, _⟩ => by show q.val = if (4 : Nat) = 1 then 0 else q.val; rw [if_neg (by decide)])

/-! ## The stored value -/

/-- What the body stores at edge `p`, column `q` of its block. -/
theorem stored_apply (x0 : Vec Ideal S12800x32 .f32) (x2 : Vec Ideal S32x4 .f32) (x5 : Vec Ideal S12800x33 .f32)
    (x6 : Vec Ideal S33x4 .f32) (x10 : Vec Ideal S1x4 .f32) (p : Fin 12800) (q : Fin 4) :
    k0_pay1 (F := Ideal) x0 x2 x5 x6 x10 (ix2 p q)
      = max ((∑ k : Fin 32, x0 (ix2 p k) * x2 (ix2 k q)) + (∑ k : Fin 33, x5 (ix2 p k) * x6 (ix2 k q)) + x10 (ix2 0 q))
          (Ideal.ofBits .f32 0x00000000#32) := by
  unfold k0_pay1
  simp only [shapeCast_self]
  rw [maximumf_apply, addf_apply, addf_apply, node_dot_apply, attr_dot_apply, bias_apply]
  rfl

end Cert.KernelIdeal.EdgeBlock

end
-- ==== Proof.EdgeArray.lean ====
/-
  The edge layer's result array after the grid has run.

  The grid has 250 points; point `t` works on edges `12800·t … 12800·t + 12799`. Its block of gathered node features and
  its block of edge attributes are those rows of the two edge-indexed arrays; the two weight ranges and the bias row
  are fetched whole at every point. So what point `t` writes back is rows `12800·t …` of ONE function of the arrays
  as the region finds them,

      edgeOut[e, q] = max ( Σ_{k<32} xg[e,k] · wx[k,q]  +  Σ_{k<33} ea[e,k] · we[k,q]  +  b[0,q] , 0 ),

  and since the 250 blocks tile the 3,200,000 rows (edge `e` lies in block `e / 12800`), the result array ends
  holding `edgeOut`.
-/
import proofs.«410914_j23630910063283_4_alg».proof.Proof.Gen.KernelIdeal.Frame
import proofs.«410914_j23630910063283_4_alg».proof.Proof.EdgeBlock
import Idealize.ShloMosaic.Lib.Pipeline.Value
import Idealize.ShloMosaic.Lib.ValueIdx

noncomputable section

namespace Cert.KernelIdeal.EdgeArray

open Cert.KernelIdeal Cert.KernelIdeal.Gen Idealize.ShloMosaic Idealize.ShloMosaic.TcCoe Idealize.SL.Sem
open Idealize.ShloMosaic.ValueIdx
open Idealize.ShloMosaic.Pipeline (Dat)

/-! ## The edge layer over whole arrays -/

/-- The edge layer at edge `e`, output column `q`. -/
def edgeAt (xg : FVec Ideal S3200000x32 .f32) (ea : FVec Ideal S3200000x33 .f32) (wx : FVec Ideal S32x4 .f32)
    (we : FVec Ideal S33x4 .f32) (b : FVec Ideal S1x4 .f32) (e : Fin 3200000) (q : Fin 4) : EReal :=
  max ((∑ k : Fin 32, xg (ix2 e k) * wx (ix2 k q)) + (∑ k : Fin 33, ea (ix2 e k) * we (ix2 k q)) + b (ix2 0 q))
    (Ideal.ofBits .f32 0x00000000#32)

/-- The edge layer as one array over all edges. -/
def edgeOut (xg : FVec Ideal S3200000x32 .f32) (ea : FVec Ideal S3200000x33 .f32) (wx : FVec Ideal S32x4 .f32)
    (we : FVec Ideal S33x4 .f32) (b : FVec Ideal S1x4 .f32) : FVec Ideal S3200000x4 .f32 :=
  fun i => edgeAt xg ea wx we b ⟨(i 0).val, (i 0).isLt⟩ ⟨(i 1).val, (i 1).isLt⟩

theorem edgeOut_apply (xg : FVec Ideal S3200000x32 .f32) (ea : FVec Ideal S3200000x33 .f32) (wx : FVec Ideal S32x4 .f32)
    (we : FVec Ideal S33x4 .f32) (b : FVec Ideal S1x4 .f32) (e : Fin 3200000) (q : Fin 4) :
    edgeOut xg ea wx we b (ix2 e q) = edgeAt xg ea wx we b e q := rfl

variable (m : (ℓ : Loc nD τ sig) → Buf (Elt Ideal) ℓ)

/-! ## The arrays as the region finds them -/

/-- The gathered source-node features, one row per edge. -/
abbrev gathered (c : Dev nD) : FVec Ideal S3200000x32 .f32 := V m c main_v10
/-- The edge attributes. -/
abbrev attrs (c : Dev nD) : FVec Ideal S3200000x33 .f32 := V m c main_arg2
/-- The weight rows that meet the node features. -/
abbrev wNode (c : Dev nD) : FVec Ideal S32x4 .f32 := V m c main_v11
/-- The weight rows that meet the edge attributes. -/
abbrev wAttr (c : Dev nD) : FVec Ideal S33x4 .f32 := V m c main_v12
/-- The bias as a row. -/
abbrev biasRow (c : Dev nD) : FVec Ideal S1x4 .f32 := V m c main_v13

theorem hz : (![0, 0] : Fin 2 → Nat) = fun _ => 0 := funext fun a => by fin_cases a <;> rfl

/-- The printed index maps over the grid: the two edge-indexed inputs and the output sit at row block `t`, the weights
    and the bias at block zero; and the grid has 250 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ t.val < 250 :=
  (by decide +kernel : ∀ t : Fin grid0.N, _)

/-! ## Each input block as rows of its array -/

/-- Point `t`'s block of gathered features is rows `12800·t …` of the gathered array. -/
theorem gathered_blk (c : Dev nD) (t : Fin cfg0.N) (p : Fin 12800) (k : Fin 32) (e : Fin 3200000)
    (he : e.val = 12800 * t.val + p.val) :
    (iblk m c 0 t : Vec Ideal S12800x32 .f32) (ix2 p k) = gathered m c (ix2 e k) := by
  obtain ⟨h0, h1, -⟩ := idx_facts t
  unfold iblk
  rw [View.read_apply]
  show V m c main_v10 _ = V m c main_v10 _
  congr 1
  funext a
  apply Fin.ext
  match a with
  | ⟨0, _⟩ => show win0_0.index t (0 : Fin 2) * 12800 + 1 * p.val = e.val; rw [h0, he]; omega
  | ⟨1, _⟩ => show win0_0.index t (1 : Fin 2) * 32 + 1 * k.val = k.val; rw [h1]; omega

/-- Point `t`'s block of edge attributes is rows `12800·t …` of the attribute array. -/
theorem attrs_blk (c : Dev nD) (t : Fin cfg0.N) (p : Fin 12800) (k : Fin 33) (e : Fin 3200000)
    (he : e.val = 12800 * t.val + p.val) :
    (iblk m c 1 t : Vec Ideal S12800x33 .f32) (ix2 p k) = attrs m c (ix2 e k) := by
  obtain ⟨-, -, h0, h1, -⟩ := idx_facts t
  unfold iblk
  rw [View.read_apply]
  show V m c main_arg2 _ = V m c main_arg2 _
  congr 1
  funext a
  apply Fin.ext
  match a with
  | ⟨0, _⟩ => show win0_1.index t (0 : Fin 2) * 12800 + 1 * p.val = e.val; rw [h0, he]; omega
  | ⟨1, _⟩ => show win0_1.index t (1 : Fin 2) * 33 + 1 * k.val = k.val; rw [h1]; omega

/-- The node-feature weights are fetched whole at every point. -/
theorem wNode_blk (c : Dev nD) (t : Fin cfg0.N) (k : Fin 32) (q : Fin 4) :
    (iblk m c 2 t : Vec Ideal S32x4 .f32) (ix2 k q) = wNode m c (ix2 k q) := by
  obtain ⟨-, -, -, -, h0, h1, -⟩ := idx_facts t
  unfold iblk
  rw [View.read_apply]
  show V m c main_v11 _ = V m c main_v11 _
  congr 1
  funext a
  apply Fin.ext
  match a with
  | ⟨0, _⟩ => show win0_2.index t (0 : Fin 2) * 32 + 1 * k.val = k.val; rw [h0]; omega
  | ⟨1, _⟩ => show win0_2.index t (1 : Fin 2) * 4 + 1 * q.val = q.val; rw [h1]; omega

/-- The edge-attribute weights are fetched whole at every point. -/
theorem wAttr_blk (c : Dev nD) (t : Fin cfg0.N) (k : Fin 33) (q : Fin 4) :
    (iblk m c 3 t : Vec Ideal S33x4 .f32) (ix2 k q) = wAttr m c (ix2 k q) := by
  obtain ⟨-, -, -, -, -, -, h0, h1, -⟩ := idx_facts t
  unfold iblk
  rw [View.read_apply]
  show V m c main_v12 _ = V m c main_v12 _
  congr 1
  funext a
  apply Fin.ext
  match a with
  | ⟨0, _⟩ => show win0_3.index t (0 : Fin 2) * 33 + 1 * k.val = k.val; rw [h0]; omega
  | ⟨1, _⟩ => show win0_3.index t (1 : Fin 2) * 4 + 1 * q.val = q.val; rw [h1]; omega

/-- The bias row is fetched whole at every point. -/
theorem bias_blk (c : Dev nD) (t : Fin cfg0.N) (q : Fin 4) :
    (iblk m c 4 t : Vec Ideal S1x4 .f32) (ix2 0 q) = biasRow m c (ix2 0 q) := by
  obtain ⟨-, -, -, -, -, -, -, -, h0, h1, -⟩ := idx_facts t
  unfold iblk
  rw [View.read_apply]
  show V m c main_v13 _ = V m c main_v13 _
  congr 1
  funext a
  apply Fin.ext
  match a with
  | ⟨0, _⟩ => show win0_4.index t (0 : Fin 2) * 1 + 1 * 0 = 0; rw [h0]
  | ⟨1, _⟩ => show win0_4.index t (1 : Fin 2) * 4 + 1 * q.val = q.val; rw [h1]; omega

/-! ## What a point stores, as the edge layer at its edges -/

/-- Entry `(p, q)` of what point `t` stores is the edge layer at edge `12800·t + p`, column `q`. -/
theorem stored_eq (c : Dev nD) (t : Fin cfg0.N) (p : Fin 12800) (q : Fin 4) (e : Fin 3200000)
    (he : e.val = 12800 * t.val + p.val) :
    k0_pay1 (F := Ideal) (iblk m c 0 t) (iblk m c 2 t) (iblk m c 1 t) (iblk m c 3 t) (iblk m c 4 t) (ix2 p q)
      = edgeAt (gathered m c) (attrs m c) (wNode m c) (wAttr m c) (biasRow m c) e q := by
  refine (EdgeBlock.stored_apply (iblk m c 0 t) (iblk m c 2 t) (iblk m c 1 t) (iblk m c 3 t) (iblk m c 4 t) p q).trans ?_
  unfold edgeAt
  refine congrArg (fun s : EReal => max s (Ideal.ofBits .f32 0x00000000#32)) ?_
  refine congrArg₂ (fun a b : EReal => a + b) (congrArg₂ (fun a b : EReal => a + b) ?_ ?_) ?_
  · exact Finset.sum_congr rfl fun k _ =>
      congrArg₂ (fun a b : EReal => a * b) (gathered_blk m c t p k e he) (wNode_blk m c t k q)
  · exact Finset.sum_congr rfl fun k _ =>
      congrArg₂ (fun a b : EReal => a * b) (attrs_blk m c t p k e he) (wAttr_blk m c t k q)
  · exact bias_blk m c t q

/-! ## What a point writes back, and the array after the run -/

/-- WHAT POINT `t` WRITES BACK is block `t` of the edge layer of the arrays as the region finds them. -/
theorem flushed_eq (c : Dev nD) (t : Fin cfg0.N) :
    (dats m 0 c).flushed 5 t = ((cfg0.win 5).blk t).view.read (Elt Ideal)
      (edgeOut (gathered m c) (attrs m c) (wNode m c) (wAttr m c) (biasRow m c)) := by
  show (cfg0.win 5).cut (grid0.coords t) ((dats m 0 c).after 5 t) = _
  rw [after0_5]
  unfold out0_5
  rw [View.canon_unit_zero hz]
  simp only [View.ld_unit_zero (S := S12800x32) hz, View.ld_unit_zero (S := S32x4) hz, View.ld_unit_zero (S := S12800x33) hz,
    View.ld_unit_zero (S := S33x4) hz, View.ld_unit_zero (S := S1x4) hz]
  obtain ⟨-, -, -, -, -, -, -, -, -, -, h0, h1, ht⟩ := idx_facts t
  funext j
  revert j
  show ∀ j : S12800x4.Idx, k0_pay1 (F := Ideal) (iblk m c 0 t) (iblk m c 2 t) (iblk m c 1 t) (iblk m c 3 t) (iblk m c 4 t) j
    = edgeOut (gathered m c) (attrs m c) (wNode m c) (wAttr m c) (biasRow m c) (((cfg0.win 5).blk t).view.emb j)
  intro j
  obtain ⟨p, q, rfl⟩ : ∃ (p : Fin 12800) (q : Fin 4), j = ix2 p q := ⟨j 0, j 1, eq_ix2 j⟩
  have hemb : ((cfg0.win 5).blk t).view.emb (ix2 p q) = ix2 (⟨12800 * t.val + p.val, by have := p.isLt; omega⟩ : Fin 3200000) q := by
    funext a
    apply Fin.ext
    match a with
    | ⟨0, _⟩ => show win0_5.index t (0 : Fin 2) * 12800 + 1 * p.val = 12800 * t.val + p.val; rw [h0]; omega
    | ⟨1, _⟩ => show win0_5.index t (1 : Fin 2) * 4 + 1 * q.val = q.val; rw [h1]; omega
  rw [hemb, edgeOut_apply]
  exact stored_eq m c t p q _ rfl

/-- An index of the result array is in point `t`'s block iff each coordinate is in the block's range on its axis. -/
theorem mem_blk (t : Fin cfg0.N) (i : S3200000x4.Idx) :
    i ∈ ((cfg0.win 5).blk t).view.set ↔ ∀ a : Fin 2, win0_5.index t a * S12800x4.size a ≤ (i a).val ∧ (i a).val < win0_5.index t a * S12800x4.size a + S12800x4.size a := by
  show i ∈ ((View.whole main_v14).slice (win0_5.rect t)).set ↔ _
  rw [View.set_slice_whole, Rect.mem_set_unit]
  exact Iff.rfl

/-- Every edge lies in some point's block: edge `e` in block `e / 12800`. -/
theorem covered (i : S3200000x4.Idx) :
    ∃ t : Fin cfg0.N, (cfg0.win 5).flush t = true ∧ i ∈ ((cfg0.win 5).blk t).view.set := by
  have hi0 : (i 0).val < 3200000 := (i 0).isLt
  have hi1 : (i 1).val < 4 := (i 1).isLt
  have hN : cfg0.N = 250 := N_0
  have hlt : (i 0).val / 12800 < cfg0.N := by rw [hN]; omega
  obtain ⟨-, -, -, -, -, -, -, -, -, -, h0, h1, -⟩ := idx_facts ⟨(i 0).val / 12800, hlt⟩
  refine ⟨⟨(i 0).val / 12800, hlt⟩, flush0_5 _, ?_⟩
  rw [mem_blk]
  intro a
  match a with
  | ⟨0, _⟩ =>
    show win0_5.index ⟨(i 0).val / 12800, hlt⟩ (0 : Fin 2) * 12800 ≤ (i 0).val ∧ (i 0).val < win0_5.index ⟨(i 0).val / 12800, hlt⟩ (0 : Fin 2) * 12800 + 12800
    rw [h0]; show (i 0).val / 12800 * 12800 ≤ (i 0).val ∧ (i 0).val < (i 0).val / 12800 * 12800 + 12800; omega
  | ⟨1, _⟩ =>
    show win0_5.index ⟨(i 0).val / 12800, hlt⟩ (1 : Fin 2) * 4 ≤ (i 1).val ∧ (i 1).val < win0_5.index ⟨(i 0).val / 12800, hlt⟩ (1 : Fin 2) * 4 + 4
    rw [h1]; omega

/-- THE ARRAY after the run: the edge layer of the arrays as the region finds them. -/
theorem final (c : Dev nD) :
    (dats m 0 c).arrAt 5 cfg0.N = edgeOut (gathered m c) (attrs m c) (wNode m c) (wAttr m c) (biasRow m c) :=
  (dats m 0 c).arrAt_eq_of_cover 5 _ (fun t _ => flushed_eq m c t) covered

end Cert.KernelIdeal.EdgeArray

end
-- ==== Proof.EdgeSpec.lean ====
/-
  The edge layer, as one function of its four arrays.

  For every edge `e` and output column `q`, with `xg` the gathered source-node features (one row of 32 per edge),
  `ea` the edge attributes (one row of 33 per edge), `W` the 65 × 4 weight matrix and `b` the bias,

      edgeSpec[e, q] = max ( Σ_{k<32} xg[e,k] · W[k,q]  +  Σ_{k<33} ea[e,k] · W[32+k,q]  +  b[q] , 0 ).

  A row of the joined matrix `[xg | ea]` against a column of `W` is a sum over 65 terms; it is the sum over the first
  32 plus the sum over the last 33 (`sum_split`). That is associativity and commutativity of addition alone, which
  the extended reals have at every value, so nothing here asks the inputs to be finite.
-/
import Idealize.ShloMosaic.PureOps.Ideal
import Idealize.ShloMosaic.Lib.ValueIdx

noncomputable section

namespace Cert.EdgeSpec

open Idealize.ShloMosaic Idealize.ShloMosaic.ValueIdx

/-- The edge layer at edge `e`, output column `q`. -/
def edgeSpec (xg : FVec Ideal ⟨2, ![3200000, 32]⟩ .f32) (ea : FVec Ideal ⟨2, ![3200000, 33]⟩ .f32)
    (W : FVec Ideal ⟨2, ![65, 4]⟩ .f32) (b : FVec Ideal ⟨1, ![4]⟩ .f32) (e : Fin 3200000) (q : Fin 4) : EReal :=
  max ((∑ k : Fin 32, xg (ix2 e k) * W (ix2 (Fin.castAdd 33 k) q))
        + (∑ k : Fin 33, ea (ix2 e k) * W (ix2 (Fin.natAdd 32 k) q)) + b (ix1 q))
    (Ideal.ofBits .f32 0x00000000#32)

/-- A sum over the 65 joined columns is the sum over the first 32 plus the sum over the last 33. -/
theorem sum_split (f : Fin 65 → EReal) :
    ∑ k : Fin 65, f k = (∑ k : Fin 32, f (Fin.castAdd 33 k)) + ∑ k : Fin 33, f (Fin.natAdd 32 k) :=
  Fin.sum_univ_add (a := 32) (b := 33) f

end Cert.EdgeSpec

end
-- ==== Proof.EdgeHost.lean ====
/-
  The kernel's host lines around the edge layer, and the kernel's run read as a value.

  BEFORE the region the host splits the edge index into the destination nodes (row 0) and the source nodes (row 1),
  wraps negative source numbers by the node count, gathers the source nodes' feature rows (`gatherRows`), cuts the
  weight matrix into its first 32 and last 33 rows, and lays the bias out as a row. AFTER it, it sums the edge layer's
  rows by destination node, counts the edges of each node the same way, divides the sums by `max(count, 1)` and joins
  the node features with the quotient (`meanByDst`).

  So the kernel's result is `meanByDst x dst (edge layer)`, and the edge layer over the cut weights and the bias row is
  the one function `edgeSpec` of the gathered rows, the attributes, the whole weight matrix and the bias: row `k` of the
  first cut is row `k` of the matrix, row `k` of the second is row `32 + k`, entry `(0, q)` of the bias row is entry `q`.
-/
import proofs.«410914_j23630910063283_4_alg».proof.Proof.EdgeArray
import proofs.«410914_j23630910063283_4_alg».proof.Proof.EdgeSpec
import Idealize.ShloMosaic.Lib.StableHlo.Run
import Idealize.ShloMosaic.Lib.Pipeline.FrameSuffix
import Idealize.ShloMosaic.Lib.Pipeline.Value
import Idealize.ShloMosaic.Lib.ValueIdx

noncomputable section

namespace Cert.KernelIdeal.EdgeHost

open Cert.KernelIdeal Cert.KernelIdeal.Gen Cert.KernelIdeal.EdgeArray Idealize.ShloMosaic Idealize.ShloMosaic.TcCoe Idealize.SL.Sem
open Idealize.ShloMosaic.StableHlo Idealize.ShloMosaic.ValueIdx Cert.EdgeSpec

/-! ## The host's pieces, named -/

/-- The destination node of each edge: row 0 of the edge index. -/
def dstIdx (ei : (⟨S2x3200000, .i32⟩ : BufTy).Contents (Elt Ideal)) : (⟨S3200000, .i32⟩ : BufTy).Contents (Elt Ideal) :=
  shapeCast S3200000 (extractStridedSlice S1x3200000 ![0, 0] ei slices_S2x3200000_S1x3200000_0_0) shapeCasts_S1x3200000_S3200000

/-- The source node of each edge: row 1 of the edge index. -/
def srcIdx (ei : (⟨S2x3200000, .i32⟩ : BufTy).Contents (Elt Ideal)) : (⟨S3200000, .i32⟩ : BufTy).Contents (Elt Ideal) :=
  shapeCast S3200000 (extractStridedSlice S1x3200000 ![1, 0] ei slices_S2x3200000_S1x3200000_1_0) shapeCasts_S1x3200000_S3200000

/-- The source nodes' feature rows, one per edge (a negative node number counts from the end). -/
def gatherRows (x : (⟨S100000x32, .f32⟩ : BufTy).Contents (Elt Ideal)) (ei : (⟨S2x3200000, .i32⟩ : BufTy).Contents (Elt Ideal)) :
    (⟨S3200000x32, .f32⟩ : BufTy).Contents (Elt Ideal) :=
  Host.gather gather_S100000x32_S3200000x1_S3200000x32_1_0_n_n_0_1_132 x
    (broadcastInDim S3200000x1 ![0] bcast_S3200000_S3200000x1_0
      (select (cmpi .slt (srcIdx ei) (broadcastInDim S3200000 ![] bcast_S_S3200000 (constantI S_ 32 0#32)))
        (addi (srcIdx ei) (broadcastInDim S3200000 ![] bcast_S_S3200000 (constantI S_ 32 100000#32)))
        (srcIdx ei)))

/-- The mean of the edge rows `h` over each destination node, joined to the node features `x`. -/
def meanByDst (x : (⟨S100000x32, .f32⟩ : BufTy).Contents (Elt Ideal)) (dst : (⟨S3200000, .i32⟩ : BufTy).Contents (Elt Ideal))
    (h : (⟨S3200000x4, .f32⟩ : BufTy).Contents (Elt Ideal)) : (⟨S100000x36, .f32⟩ : BufTy).Contents (Elt Ideal) :=
  concatenate S100000x36 1
    [⟨S100000x32, x⟩,
      ⟨S100000x4,
        Host.divf
          (Host.scatterAdd scatter_S100000x4_S3200000x1_S3200000x4_1_0_0_1
            (broadcastInDim S100000x4 ![] bcast_S_S100000x4 (constant (F := Ideal) S_ .f32 0x00000000#32))
            (broadcastInDim S3200000x1 ![0] bcast_S3200000_S3200000x1_0 dst)
            h)
          (broadcastInDim S100000x4 ![0, 1] bcast_S100000x1_S100000x4_0_1
            (broadcastInDim S100000x1 ![0] bcast_S100000_S100000x1_0
              (maximumf
                (Host.scatterAdd scatter_S100000_S3200000x1_S3200000_n_0_0_1
                  (broadcastInDim S100000 ![] bcast_S_S100000 (constant (F := Ideal) S_ .f32 0x00000000#32))
                  (broadcastInDim S3200000x1 ![0] bcast_S3200000_S3200000x1_0 dst)
                  (broadcastInDim S3200000 ![] bcast_S_S3200000 (constant (F := Ideal) S_ .f32 0x3F800000#32)))
                (broadcastInDim S100000 ![] bcast_S_S100000 (constant (F := Ideal) S_ .f32 0x3F800000#32)))))⟩]
    concatenates_S100000x32_S100000x4_S100000x36_d1

/-- The kernel's edge layer as a function of the argument arrays: the edge layer of the gathered rows and the
    attributes over the two cuts of the weights and the bias laid out as a row. -/
def edgesOf (x : (⟨S100000x32, .f32⟩ : BufTy).Contents (Elt Ideal)) (ei : (⟨S2x3200000, .i32⟩ : BufTy).Contents (Elt Ideal))
    (ea : (⟨S3200000x33, .f32⟩ : BufTy).Contents (Elt Ideal)) (W : (⟨S65x4, .f32⟩ : BufTy).Contents (Elt Ideal))
    (b : (⟨S4, .f32⟩ : BufTy).Contents (Elt Ideal)) : (⟨S3200000x4, .f32⟩ : BufTy).Contents (Elt Ideal) :=
  edgeOut (gatherRows x ei) ea (extractStridedSlice S32x4 ![0, 0] W slices_S65x4_S32x4_0_0)
    (extractStridedSlice S33x4 ![32, 0] W slices_S65x4_S33x4_32_0) (shapeCast S1x4 b shapeCasts_S4_S1x4)

variable (m : (ℓ : Loc nD τ sig) → Buf (Elt Ideal) ℓ)

/-! ## What the host lines before the region leave in the region's arrays -/

/-- The destination nodes, as the lines after the region find them. -/
theorem dst_eq (c : Dev nD) : V m c main_v1 = dstIdx (m ((c : Thread nD τ).loc main_arg1)) := by
  show StableHlo.after hostOps0 (fun b => m (c, b)) (Proc.devRef .tc main_v1) = _
  after_results
  rfl

/-- Window 0's array is the gathered rows. -/
theorem gathered_eq (c : Dev nD) :
    gathered m c = gatherRows (m ((c : Thread nD τ).loc main_arg0)) (m ((c : Thread nD τ).loc main_arg1)) := by
  show StableHlo.after hostOps0 (fun b => m (c, b)) (Proc.devRef .tc main_v10) = _
  after_results
  rfl

/-- Window 1's array is the edge attributes, as launched. -/
theorem attrs_eq (c : Dev nD) : attrs m c = m ((c : Thread nD τ).loc main_arg2) := V_main_arg2 m c

/-- Window 2's array is the first 32 rows of the weights. -/
theorem wNode_eq (c : Dev nD) :
    wNode m c = extractStridedSlice S32x4 ![0, 0] (m ((c : Thread nD τ).loc main_arg3)) slices_S65x4_S32x4_0_0 := by
  show StableHlo.after hostOps0 (fun b => m (c, b)) (Proc.devRef .tc main_v11) = _
  after_results

/-- Window 3's array is the last 33 rows of the weights. -/
theorem wAttr_eq (c : Dev nD) :
    wAttr m c = extractStridedSlice S33x4 ![32, 0] (m ((c : Thread nD τ).loc main_arg3)) slices_S65x4_S33x4_32_0 := by
  show StableHlo.after hostOps0 (fun b => m (c, b)) (Proc.devRef .tc main_v12) = _
  after_results

/-- Window 4's array is the bias laid out as a row. -/
theorem biasRow_eq (c : Dev nD) :
    biasRow m c = shapeCast S1x4 (m ((c : Thread nD τ).loc main_arg4)) shapeCasts_S4_S1x4 := by
  show StableHlo.after hostOps0 (fun b => m (c, b)) (Proc.devRef .tc main_v13) = _
  after_results
  rfl

/-! ## The host lines after the region -/

set_option maxHeartbeats 1000000 in
/-- From any buffer contents `W`, the lines after the region leave in the result buffer the mean by destination of what
    `W` holds at the edge layer's array, over the destinations `W` holds, joined to the node features `W` holds. -/
theorem tail_generic (W : Valuation τ sig (Elt Ideal)) :
    StableHlo.after (hostOps1 (F := Ideal)) W (Proc.devRef .tc main_v27)
      = meanByDst (W (Proc.devRef .tc main_arg0)) (W (Proc.devRef .tc main_v1)) (W (Proc.devRef .tc main_v14)) := by
  after_results
  rfl

/-- What the region leaves on core `c`: its arrays at what the grid computed, every other buffer as it found it. -/
def afterRegion (c : Dev nD) : Valuation τ sig (Elt Ideal) :=
  Pipeline.withArrays spec0 c (V0 m c) fun w => (dats m 0 c).arrAt w cfg0.N

/-- The node features are no array of the region: as launched. -/
theorem afterRegion_x (c : Dev nD) : afterRegion m c (Proc.devRef .tc main_arg0) = m ((c : Thread nD τ).loc main_arg0) := by
  unfold afterRegion
  rw [Pipeline.withArrays_of_ne _ c (V0 m c) _ main_arg0 (by exact (by decide : ∀ w, Pipeline.arrRef spec0 w ≠ main_arg0))]
  exact V_main_arg0 m c

/-- The destination nodes are no array of the region: as the lines before it left them. -/
theorem afterRegion_dst (c : Dev nD) : afterRegion m c (Proc.devRef .tc main_v1) = dstIdx (m ((c : Thread nD τ).loc main_arg1)) := by
  unfold afterRegion
  rw [Pipeline.withArrays_of_ne _ c (V0 m c) _ main_v1 (by exact (by decide : ∀ w, Pipeline.arrRef spec0 w ≠ main_v1))]
  exact dst_eq m c

/-- The edge layer's array is the region's output: the edge layer of the arrays as the region found them. -/
theorem afterRegion_edges (c : Dev nD) :
    afterRegion m c (Proc.devRef .tc main_v14) = edgeOut (gathered m c) (attrs m c) (wNode m c) (wAttr m c) (biasRow m c) :=
  (Pipeline.withArrays_arr spec0 launch0.win.arr_inj c _ _ 5).trans (EdgeArray.final m c)

/-- The kernel's result on core `c`. -/
def result (c : Dev nD) : (⟨S100000x36, .f32⟩ : BufTy).Contents (Elt Ideal) :=
  meanByDst (m ((c : Thread nD τ).loc main_arg0)) (dstIdx (m ((c : Thread nD τ).loc main_arg1)))
    (edgeOut (gathered m c) (attrs m c) (wNode m c) (wAttr m c) (biasRow m c))

/-- The result buffer after the lines that follow the region. -/
theorem tail_value (c : Dev nD) : Pipeline.afterTail₀ cfgs (dats m) 0 (V0 m) [hostOps1] c main_v27 = result m c := by
  unfold Pipeline.afterTail₀
  show StableHlo.after hostOps1 (afterRegion m c) (Proc.devRef .tc main_v27) = _
  rw [tail_generic, afterRegion_x, afterRegion_dst, afterRegion_edges]
  rfl

/-- The kernel's result as a function of the argument arrays alone: each array the region found, by what the host lines
    before it computed. -/
theorem result_args (c : Dev nD) :
    result m c = meanByDst (m ((c : Thread nD τ).loc main_arg0)) (dstIdx (m ((c : Thread nD τ).loc main_arg1)))
      (edgesOf (m ((c : Thread nD τ).loc main_arg0)) (m ((c : Thread nD τ).loc main_arg1)) (m ((c : Thread nD τ).loc main_arg2))
        (m ((c : Thread nD τ).loc main_arg3)) (m ((c : Thread nD τ).loc main_arg4))) := by
  unfold result edgesOf
  rw [gathered_eq, attrs_eq, wNode_eq, wAttr_eq, biasRow_eq]

/-! ## The kernel's run, read -/

/-- Every weakly fair execution of the kernel's program terminates with the result buffer at `result` and the arguments
    unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v27 (Pipeline.mem_restRefs_of main_v27 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-! ## The kernel's edge layer is `edgeSpec` -/

/-- Row `k` of the first cut of the weights is row `k` of the weights. -/
theorem cutNode_apply (W : (⟨S65x4, .f32⟩ : BufTy).Contents (Elt Ideal)) (k : Fin 32) (q : Fin 4) :
    extractStridedSlice S32x4 ![0, 0] W slices_S65x4_S32x4_0_0 (ix2 k q) = W (ix2 (Fin.castAdd 33 k) q) :=
  extractStridedSlice_apply ![0, 0] W slices_S65x4_S32x4_0_0 (ix2 k q) (ix2 (Fin.castAdd 33 k) q) (fun a => match a with
    | ⟨0, _⟩ => by show k.val = 0 + k.val; omega
    | ⟨1, _⟩ => by show q.val = 0 + q.val; omega)

/-- Row `k` of the second cut of the weights is row `32 + k` of the weights. -/
theorem cutAttr_apply (W : (⟨S65x4, .f32⟩ : BufTy).Contents (Elt Ideal)) (k : Fin 33) (q : Fin 4) :
    extractStridedSlice S33x4 ![32, 0] W slices_S65x4_S33x4_32_0 (ix2 k q) = W (ix2 (Fin.natAdd 32 k) q) :=
  extractStridedSlice_apply ![32, 0] W slices_S65x4_S33x4_32_0 (ix2 k q) (ix2 (Fin.natAdd 32 k) q) (fun a => match a with
    | ⟨0, _⟩ => by show 32 + k.val = 32 + k.val; rfl
    | ⟨1, _⟩ => by show q.val = 0 + q.val; omega)

/-- Entry `(0, q)` of the bias row is entry `q` of the bias. -/
theorem biasCast_apply (b : (⟨S4, .f32⟩ : BufTy).Contents (Elt Ideal)) (q : Fin 4) :
    shapeCast S1x4 b shapeCasts_S4_S1x4 (ix2 0 q) = b (ix1 q) :=
  shapeCast_apply b shapeCasts_S4_S1x4 (ix2 0 q) (ix1 q)
    (by rewrite [Shape.rowMajor_val_one, Shape.rowMajor_val_two]; show q.val = 0 * 4 + q.val; omega)

/-- The edge layer over the cut weights and the bias row is `edgeSpec` over the whole weights and the bias. -/
theorem edgeAt_eq_spec (xg : (⟨S3200000x32, .f32⟩ : BufTy).Contents (Elt Ideal)) (ea : (⟨S3200000x33, .f32⟩ : BufTy).Contents (Elt Ideal))
    (W : (⟨S65x4, .f32⟩ : BufTy).Contents (Elt Ideal)) (b : (⟨S4, .f32⟩ : BufTy).Contents (Elt Ideal)) (e : Fin 3200000) (q : Fin 4) :
    edgeAt xg ea (extractStridedSlice S32x4 ![0, 0] W slices_S65x4_S32x4_0_0) (extractStridedSlice S33x4 ![32, 0] W slices_S65x4_S33x4_32_0)
        (shapeCast S1x4 b shapeCasts_S4_S1x4) e q
      = edgeSpec xg ea W b e q := by
  unfold edgeAt edgeSpec
  refine congrArg (fun s : EReal => max s (Ideal.ofBits .f32 0x00000000#32)) ?_
  refine congrArg₂ (fun a b : EReal => a + b) (congrArg₂ (fun a b : EReal => a + b) ?_ ?_) ?_
  · exact Finset.sum_congr rfl fun k _ => congrArg (fun w : EReal => xg (ix2 e k) * w) (cutNode_apply W k q)
  · exact Finset.sum_congr rfl fun k _ => congrArg (fun w : EReal => ea (ix2 e k) * w) (cutAttr_apply W k q)
  · exact biasCast_apply b q

/-- THE KERNEL'S EDGE LAYER at edge `e`, column `q` is `edgeSpec` of the gathered rows, the attributes, the weights and the bias. -/
theorem edgesOf_apply (x : (⟨S100000x32, .f32⟩ : BufTy).Contents (Elt Ideal)) (ei : (⟨S2x3200000, .i32⟩ : BufTy).Contents (Elt Ideal))
    (ea : (⟨S3200000x33, .f32⟩ : BufTy).Contents (Elt Ideal)) (W : (⟨S65x4, .f32⟩ : BufTy).Contents (Elt Ideal))
    (b : (⟨S4, .f32⟩ : BufTy).Contents (Elt Ideal)) (e : Fin 3200000) (q : Fin 4) :
    edgesOf x ei ea W b (ix2 e q) = edgeSpec (gatherRows x ei) ea W b e q := by
  unfold edgesOf
  rw [edgeOut_apply, edgeAt_eq_spec]

end Cert.KernelIdeal.EdgeHost

end
-- ==== Proof.EdgeRef.lean ====
/-
  The reference's edge layer, entry by entry.

  The reference joins each edge's gathered source-node features and its attributes into one row of 65, multiplies by the
  65 × 4 weight matrix, adds the bias and rectifies. Read at edge `e`, column `q`: the product is the sum over the 65
  joined columns; a joined column below 32 is a gathered feature and one from 32 on is an attribute, so the sum splits
  into the sum over the 32 features against the first 32 weight rows plus the sum over the 33 attributes against the
  last 33 — the edge layer `edgeSpec` of the reference's own gathered rows.
-/
import proofs.«410914_j23630910063283_4_alg».proof.Proof.Gen.ReferenceIdeal.Read
import proofs.«410914_j23630910063283_4_alg».proof.Proof.EdgeSpec
import Idealize.ShloMosaic.Lib.Pipeline.Value
import Idealize.ShloMosaic.Lib.ValueIdx

noncomputable section

namespace Cert.ReferenceIdeal.EdgeRef

open Cert.ReferenceIdeal Cert.ReferenceIdeal.Gen Cert.ReferenceIdeal.Read Idealize.ShloMosaic Idealize.ShloMosaic.ValueIdx
open Cert.EdgeSpec

variable (x0 : (⟨S100000x32, .f32⟩ : BufTy).Contents (Elt Ideal)) (x1 : (⟨S2x3200000, .i32⟩ : BufTy).Contents (Elt Ideal))
  (x2 : (⟨S3200000x33, .f32⟩ : BufTy).Contents (Elt Ideal)) (x3 : (⟨S65x4, .f32⟩ : BufTy).Contents (Elt Ideal))
  (x4 : (⟨S4, .f32⟩ : BufTy).Contents (Elt Ideal))

/-- A joined column below 32 is the gathered feature of that number. -/
theorem joined_node (e : Fin 3200000) (q : Fin 4) (k : Fin 32) :
    val_main_v11 (F := Ideal) x0 x1 x2 (lidx_main_v12 (ix2 e q) (Fin.castAdd 33 k)) = val_main_v10 (F := Ideal) x0 x1 (ix2 e k) := by
  unfold val_main_v11
  exact concatenate_pair_apply_left _ _ _ concatenates_S3200000x32_S3200000x33_S3200000x65_d1 _ rfl (ix2 e k)
    (fun b => match b with
      | ⟨0, _⟩ => rfl
      | ⟨1, _⟩ => rfl)

/-- A joined column from 32 on is the edge attribute 32 columns back. -/
theorem joined_attr (e : Fin 3200000) (q : Fin 4) (k : Fin 33) :
    val_main_v11 (F := Ideal) x0 x1 x2 (lidx_main_v12 (ix2 e q) (Fin.natAdd 32 k)) = x2 (ix2 e k) := by
  unfold val_main_v11
  exact concatenate_pair_apply_right _ _ _ concatenates_S3200000x32_S3200000x33_S3200000x65_d1 _ rfl rfl (ix2 e k)
    (fun b hb => match b, hb with
      | ⟨0, _⟩, _ => rfl
      | ⟨1, _⟩, hb => absurd rfl hb)
    (by show k.val + 32 = 32 + k.val; omega)

/-- THE REFERENCE'S EDGE LAYER at edge `e`, column `q` is `edgeSpec` of its gathered rows, the attributes, the weights and the bias. -/
theorem relu_apply (e : Fin 3200000) (q : Fin 4) :
    val_main_v16 (F := Ideal) x0 x1 x2 x3 x4 (ix2 e q) = edgeSpec (val_main_v10 (F := Ideal) x0 x1) x2 x3 x4 e q := by
  rw [val_main_v16_apply, val_main_v15_apply, val_main_v12_apply, val_main_v14_apply, val_main_v13_apply,
    val_main_call0_v0_apply, val_main_call0_cst_apply, sum_split]
  simp only [Ideal.maximumf_def, Ideal.addf_def, Ideal.ofBits_def]
  unfold edgeSpec
  refine congrArg (fun s : EReal => max s (Ideal.ofBits .f32 0x00000000#32)) ?_
  refine congrArg₂ (fun a b : EReal => a + b) (congrArg₂ (fun a b : EReal => a + b) ?_ ?_) ?_
  · exact Finset.sum_congr rfl fun k _ =>
      congrArg₂ (fun a b : EReal => a * b) (joined_node x0 x1 x2 e q k)
        (congrArg x3 (funext fun a => match a with
          | ⟨0, _⟩ => rfl
          | ⟨1, _⟩ => rfl))
  · exact Finset.sum_congr rfl fun k _ =>
      congrArg₂ (fun a b : EReal => a * b) (joined_attr x0 x1 x2 e q k)
        (congrArg x3 (funext fun a => match a with
          | ⟨0, _⟩ => rfl
          | ⟨1, _⟩ => rfl))
  · exact congrArg x4 (funext fun a => match a with
      | ⟨0, _⟩ => rfl)

end Cert.ReferenceIdeal.EdgeRef

end
-- ==== Proof.lean ====
/-
  The kernel against its reference, over the extended reals.

  Both programs compute, for a graph with node features `x` (100000 × 32), an edge index (2 × 3200000), edge attributes
  (3200000 × 33), weights `W` (65 × 4) and a bias `b` (4):

      h[e, q]  = max ( Σ_{k<32} x[src e, k] · W[k,q]  +  Σ_{k<33} attr[e,k] · W[32+k,q]  +  b[q] , 0 )        (one row per edge)
      out      = [ x | (Σ_{e : dst e = n} h[e, ·]) / max(#{e : dst e = n}, 1) ]                                  (one row per node)

  The reference forms `h` as ONE product of the joined rows `[x[src e] | attr[e]]` with `W`; the kernel forms it, 12800 edges
  at a grid point, as the sum of TWO products, the gathered features against the first 32 rows of `W` and the attributes
  against the last 33. The two agree because a sum over the 65 joined columns is the sum over the first 32 plus the sum
  over the last 33 — associativity and commutativity of addition, which hold at every extended real, so the precondition
  is never opened. The gather before the edge layer and the mean by destination after it are the same host operations
  in both programs, applied to equal arrays.

  `result_eq` is that equality of the two result arrays as functions of the argument arrays; the claims follow from the
  kernel's run (the generated frame run, read as a value) and the reference's generated run.
-/
import proofs.«410914_j23630910063283_4_alg».proof.Defs
import proofs.«410914_j23630910063283_4_alg».proof.Proof.Gen.Kernel
import proofs.«410914_j23630910063283_4_alg».proof.Proof.Gen.Kernel.Skeleton
import proofs.«410914_j23630910063283_4_alg».proof.Proof.Gen.Kernel.Launch
import proofs.«410914_j23630910063283_4_alg».proof.Proof.Gen.Kernel.Points
import proofs.«410914_j23630910063283_4_alg».proof.Proof.Gen.Kernel.Frame
import proofs.«410914_j23630910063283_4_alg».proof.Proof.Gen.KernelIdeal
import proofs.«410914_j23630910063283_4_alg».proof.Proof.Gen.KernelIdeal.Skeleton
import proofs.«410914_j23630910063283_4_alg».proof.Proof.Gen.KernelIdeal.Launch
import proofs.«410914_j23630910063283_4_alg».proof.Proof.Gen.KernelIdeal.Points
import proofs.«410914_j23630910063283_4_alg».proof.Proof.Gen.KernelIdeal.Frame
import proofs.«410914_j23630910063283_4_alg».proof.Proof.Gen.ReferenceIdeal
import proofs.«410914_j23630910063283_4_alg».proof.Proof.Gen.ReferenceIdeal.Run
import proofs.«410914_j23630910063283_4_alg».proof.Proof.Gen.ReferenceIdeal.Read
import proofs.«410914_j23630910063283_4_alg».proof.Proof.Gen.Pre_finite_inputs
import proofs.«410914_j23630910063283_4_alg».proof.Proof.EdgeHost
import proofs.«410914_j23630910063283_4_alg».proof.Proof.EdgeRef
import Idealize.ShloMosaic.Adequacy
import Idealize.ShloMosaic.Init

noncomputable section

namespace Cert.Proof

open Idealize.ShloMosaic Idealize.ShloMosaic.TcCoe Idealize.SL.Sem Idealize.ShloMosaic.ValueIdx

/-! ## The two result arrays are one function of the arguments -/

/-- The reference's edge layer is the kernel's: at every edge and column both are `edgeSpec` of the gathered rows, the
    attributes, the weights and the bias (the reference by the split of its 65-term sums, the kernel through its cuts
    of the weights), and the two programs gather the same rows. -/
theorem edges_eq (x : (⟨Cert.ReferenceIdeal.S100000x32, .f32⟩ : BufTy).Contents (Elt Ideal))
    (ei : (⟨Cert.ReferenceIdeal.S2x3200000, .i32⟩ : BufTy).Contents (Elt Ideal))
    (ea : (⟨Cert.ReferenceIdeal.S3200000x33, .f32⟩ : BufTy).Contents (Elt Ideal))
    (W : (⟨Cert.ReferenceIdeal.S65x4, .f32⟩ : BufTy).Contents (Elt Ideal))
    (b : (⟨Cert.ReferenceIdeal.S4, .f32⟩ : BufTy).Contents (Elt Ideal)) :
    Cert.ReferenceIdeal.Read.val_main_v16 (F := Ideal) x ei ea W b = Cert.KernelIdeal.EdgeHost.edgesOf x ei ea W b := by
  funext i
  obtain ⟨e, q, rfl⟩ : ∃ (e : Fin 3200000) (q : Fin 4), i = ix2 e q := ⟨i 0, i 1, eq_ix2 i⟩
  rw [Cert.ReferenceIdeal.EdgeRef.relu_apply, Cert.KernelIdeal.EdgeHost.edgesOf_apply]
  rfl

/-- THE TWO RESULTS AGREE: the reference's result array is the kernel's, as functions of the argument arrays. -/
theorem result_eq (x : (⟨Cert.ReferenceIdeal.S100000x32, .f32⟩ : BufTy).Contents (Elt Ideal))
    (ei : (⟨Cert.ReferenceIdeal.S2x3200000, .i32⟩ : BufTy).Contents (Elt Ideal))
    (ea : (⟨Cert.ReferenceIdeal.S3200000x33, .f32⟩ : BufTy).Contents (Elt Ideal))
    (W : (⟨Cert.ReferenceIdeal.S65x4, .f32⟩ : BufTy).Contents (Elt Ideal))
    (b : (⟨Cert.ReferenceIdeal.S4, .f32⟩ : BufTy).Contents (Elt Ideal)) :
    Cert.ReferenceIdeal.Read.val_main_v29 (F := Ideal) x ei ea W b
      = Cert.KernelIdeal.EdgeHost.meanByDst x (Cert.KernelIdeal.EdgeHost.dstIdx ei)
          (Cert.KernelIdeal.EdgeHost.edgesOf x ei ea W b) := by
  unfold Cert.ReferenceIdeal.Read.val_main_v29 Cert.ReferenceIdeal.Read.val_main_v28 Cert.ReferenceIdeal.Read.val_main_v19
  rw [edges_eq]
  rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel ends with its result array at `meanByDst x dst (edge layer)`, the reference with its own at the same
    function of arguments that agree (`result_eq`). -/
theorem algebraic : Cert.algebraic_KernelIdeal_ReferenceIdeal := by
  intro m ρ m' ρ' _ hagree
  refine ⟨Cert.KernelIdeal.EdgeHost.result m, Cert.KernelIdeal.EdgeHost.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2.1,
    (hagree c).2.2.2.2, Cert.KernelIdeal.EdgeHost.result_args]
  exact result_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
